-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg14 : FVec F S32 .f32) (main_arg15 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg11 : FVec F S32x32 .f32) (main_arg12 : FVec F S32 .f32) (main_arg13 : FVec F S32 .f32) (main_arg14 : FVec F S32 .f32) (main_arg15 : FVec F S32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg11
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_v63 main_v67

def fn_part2 {F : FTy → Type} [FloatOps F] (main_arg7 : FVec F S8192x8192 .f32) (main_arg8 : FVec F S32x32 .f32) (main_arg9 : FVec F S32x32 .f32) (main_arg10 : FVec F S32x32 .f32) (main_arg11 : FVec F S32x32 .f32) (main_arg12 : FVec F S32 .f32) (main_arg13 : FVec F S32 .f32) (main_arg14 : FVec F S32 .f32) (main_arg15 : FVec F S32 .f32) (main_v33 : IVec S_ 1) : IVec S_ 1 :=
  let main_v34 : FVec F S8192x8192 .f32 := Host.absf main_arg7
  let main_cst_12 : FVec F S_ .f32 := constant S_ .f32 0x7F800000#32
  let main_v35 : FVec F S8192x8192 .f32 := broadcastInDim S8192x8192 ![] bcast_S_S8192x8192 main_cst_12
  let main_v36 : IVec S8192x8192 1 := cmpf .olt main_v34 main_v35
  let main_c_13 : IVec S_ 1 := constantI S_ 1 1#1
  let main_v37 : IVec S_ 1 := (fun x v => Host.reduce IntOp.andi x v reducesTo_S8192x8192_S_d0_1 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_arg13 main_arg14 main_arg15 main_v48 main_v49 main_v50

def fn_part1 {F : FTy → Type} [FloatOps F] (main_arg4 : FVec F S8192x8192 .f32) (main_arg5 : FVec F S8192x8192 .f32) (main_arg6 : FVec F S8192x8192 .f32) (main_arg7 : FVec F S8192x8192 .f32) (main_arg8 : FVec F S32x32 .f32) (main_arg9 : FVec F S32x32 .f32) (main_arg10 : FVec F S32x32 .f32) (main_arg11 : FVec F S32x32 .f32) (main_arg12 : FVec F S32 .f32) (main_arg13 : FVec F S32 .f32) (main_arg14 : FVec F S32 .f32) (main_arg15 : FVec F S32 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x32 .f32) (main_arg1 : FVec F S8192x32 .f32) (main_arg2 : FVec F S8192x32 .f32) (main_arg3 : FVec F S8192x32 .f32) (main_arg4 : FVec F S8192x8192 .f32) (main_arg5 : FVec F S8192x8192 .f32) (main_arg6 : FVec F S8192x8192 .f32) (main_arg7 : FVec F S8192x8192 .f32) (main_arg8 : FVec F S32x32 .f32) (main_arg9 : FVec F S32x32 .f32) (main_arg10 : FVec F S32x32 .f32) (main_arg11 : FVec F S32x32 .f32) (main_arg12 : FVec F S32 .f32) (main_arg13 : FVec F S32 .f32) (main_arg14 : FVec F S32 .f32) (main_arg15 : FVec F S32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S1x32 : Shape := ⟨2, ![1, 32]⟩
abbrev S1024x512 : Shape := ⟨2, ![1024, 512]⟩
abbrev S512x32 : Shape := ⟨2, ![512, 32]⟩
abbrev S1024x32 : Shape := ⟨2, ![1024, 32]⟩

abbrev nBuf : Space → Nat
  | .hbm => 33
  | .vmem => 19
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S1x32, .f32⟩
  | .hbm, ⟨30, _⟩ => ⟨S8192x32, .f32⟩
  | .hbm, ⟨31, _⟩ => ⟨S8192x32, .f32⟩
  | .hbm, ⟨32, _⟩ => ⟨S8192x32, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x32, .f32⟩
  | .local _ .vmem, ⟨9, _⟩ => ⟨S512x32, .f32⟩
  | .local _ .vmem, ⟨10, _⟩ => ⟨S512x32, .f32⟩
  | .local _ .vmem, ⟨11, _⟩ => ⟨S512x32, .f32⟩
  | .local _ .vmem, ⟨12, _⟩ => ⟨S512x32, .f32⟩
  | .local _ .vmem, ⟨13, _⟩ => ⟨S512x32, .f32⟩
  | .local _ .vmem, ⟨14, _⟩ => ⟨S512x32, .f32⟩
  | .local _ .vmem, ⟨15, _⟩ => ⟨S512x32, .f32⟩
  | .local _ .vmem, ⟨16, _⟩ => ⟨S1024x32, .f32⟩
  | .local _ .vmem, ⟨17, _⟩ => ⟨S1024x32, .f32⟩
  | .local _ .vmem, ⟨18, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v35 : BitVec 1 := Scalar.cmpi .eq arg1 c15_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  dot_S8192x32_S32x32_S8192x32_1_0_0_1_n_n_wf : DotDims.WF S8192x32 S32x32 S8192x32 [1] [0] [0] [1] [] []
  dot_S1024x512_S512x32_S1024x32_1_0_0_1_n_n_wf : DotDims.WF S1024x512 S512x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x8192.size a
  hwx0_0 : ∀ i : grid0.Coords, EltTy.bits .f32 = 32 ∨ (Rect.block (s := S8192x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x8192.size a
  hwx0_1 : ∀ i : grid0.Coords, EltTy.bits .f32 = 32 ∨ (Rect.block (s := S8192x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x8192.size a
  hwx0_2 : ∀ i : grid0.Coords, EltTy.bits .f32 = 32 ∨ (Rect.block (s := S8192x8192) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x8192.size a
  hwx0_3 : ∀ i : grid0.Coords, EltTy.bits .f32 = 32 ∨ (Rect.block (s := S8192x8192) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x32.size a ≤ S8192x32.size a
  hwx0_4 : ∀ i : grid0.Coords, EltTy.bits .f32 = 32 ∨ (Rect.block (s := S8192x32) S512x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x32.size a ≤ S8192x32.size a
  hwx0_5 : ∀ i : grid0.Coords, EltTy.bits .f32 = 32 ∨ (Rect.block (s := S8192x32) S512x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S8192x32.size a
  hwx0_6 : ∀ i : grid0.Coords, EltTy.bits .f32 = 32 ∨ (Rect.block (s := S8192x32) S512x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x32.size a ≤ S8192x32.size a
  hwx0_7 : ∀ i : grid0.Coords, EltTy.bits .f32 = 32 ∨ (Rect.block (s := S8192x32) S512x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x32.size a ≤ S8192x32.size a
  hwx0_8 : ∀ i : grid0.Coords, EltTy.bits .f32 = 32 ∨ (Rect.block (s := S8192x32) S1024x32.size (cc0_transform_8 i) (hinb0_8 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf

abbrev win0_0 : Pipeline.Window sig grid0 :=
  Pipeline.Window.ofSpec (Memref.whole main_arg4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S512x32.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1024x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S1x32 : Shape := ⟨2, ![1, 32]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S8192x32, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S1x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S_, .f32⟩
  | .hbm, ⟨40, _⟩ => ⟨S8192x32, .f32⟩
  | .hbm, ⟨41, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.Pieces.lean ====
/-
  What one grid point leaves behind, as plain functions of what it loaded.

  The body keeps a running [1024, 32] block in a scratch buffer.  At the first point of a row block's run it stores
  zeros there and reads them back; at every point it then stores (what it read) + (the four partial products of the
  point's input blocks); at the last point of the run it reads that sum back and stores max(sum, 0) into the output
  block.  The frame run found these stores as lists of pieces over named intermediate loads; the lemmas here read
  each list back as one payload term, for any float instance.
-/
import proofs.«137593_j19696720019799_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One point's update of the running block `acc`: `acc` plus the four partial products of the point's blocks. -/
abbrev step (x0 x1 x2 x3 : Vec F S1024x512 .f32) (x4 x5 x6 x7 : Vec F S512x32 .f32) (acc : Vec F S1024x32 .f32) : Vec F S1024x32 .f32 :=
  k0_pay1 (k0_pay4 x0 x1 x2 x3 x4 x5 x6 x7 acc)

/-- First point of a run: the scratch ends at the update of the zero block (stored, then read back). -/
theorem scratch_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x32 .f32) (harg6 : arg6.IsWhole) (arg7 : Memref sig .tc .vmem S512x32 .f32) (harg7 : arg7.IsWhole) (arg8 : Memref sig .tc .vmem S512x32 .f32) (harg8 : arg8.IsWhole) (arg9 : Memref sig .tc .vmem S512x32 .f32) (harg9 : arg9.IsWhole) (arg10 : Memref sig .tc .vmem S1024x32 .f32) (harg10 : arg10.IsWhole) (arg11 : Memref sig .tc .vmem S1024x32 .f32) (harg11 : arg11.IsWhole) (hc0 : cond0_0 i) (hc1 : ¬cond0_1 i) (x0 x1 x2 x3 : Vec F S1024x512 .f32) (x4 x5 x6 x7 : Vec F S512x32 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = step x0 x1 x2 x3 x4 x5 x6 x7 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1024x32) hz]
  simp only [View.readAt_eq_ld, harg2.read_unread, harg3.read_unread, harg4.read_unread, harg5.read_unread,
    harg6.read_unread, harg7.read_unread, harg8.read_unread, harg9.read_unread, harg11.read_unread,
    View.ld_unit_zero (S := S1024x512) hz, View.ld_unit_zero (S := S512x32) hz, View.ld_unit_zero (S := S1024x32) hz,
    View.readCov_unit_zero (S := S1024x32) _ hz]

/-- A middle point: the scratch ends at the update of what the point before left. -/
theorem scratch_middle (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x32 .f32) (harg6 : arg6.IsWhole) (arg7 : Memref sig .tc .vmem S512x32 .f32) (harg7 : arg7.IsWhole) (arg8 : Memref sig .tc .vmem S512x32 .f32) (harg8 : arg8.IsWhole) (arg9 : Memref sig .tc .vmem S512x32 .f32) (harg9 : arg9.IsWhole) (arg10 : Memref sig .tc .vmem S1024x32 .f32) (harg10 : arg10.IsWhole) (arg11 : Memref sig .tc .vmem S1024x32 .f32) (harg11 : arg11.IsWhole) (hc0 : ¬cond0_0 i) (hc1 : ¬cond0_1 i) (x0 x1 x2 x3 : Vec F S1024x512 .f32) (x4 x5 x6 x7 : Vec F S512x32 .f32)
    (xs0 : Vec F S1024x32 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg11.read_unread,
    View.ld_unit_zero (S := S1024x512) hz, View.ld_unit_zero (S := S512x32) hz, View.ld_unit_zero (S := S1024x32) hz,
    View.readCov_unit_zero (S := S1024x32) _ hz]

/-- The last point of a run: the scratch ends at the update of what the point before left, -/
theorem scratch_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x32 .f32) (harg6 : arg6.IsWhole) (arg7 : Memref sig .tc .vmem S512x32 .f32) (harg7 : arg7.IsWhole) (arg8 : Memref sig .tc .vmem S512x32 .f32) (harg8 : arg8.IsWhole) (arg9 : Memref sig .tc .vmem S512x32 .f32) (harg9 : arg9.IsWhole) (arg10 : Memref sig .tc .vmem S1024x32 .f32) (harg10 : arg10.IsWhole) (arg11 : Memref sig .tc .vmem S1024x32 .f32) (harg11 : arg11.IsWhole) (hc0 : ¬cond0_0 i) (hc1 : cond0_1 i) (x0 x1 x2 x3 : Vec F S1024x512 .f32) (x4 x5 x6 x7 : Vec F S512x32 .f32)
    (xs0 : Vec F S1024x32 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg11.read_unread,
    View.ld_unit_zero (S := S1024x512) hz, View.ld_unit_zero (S := S512x32) hz, View.ld_unit_zero (S := S1024x32) hz,
    View.readCov_unit_zero (S := S1024x32) _ hz]

/-- and the output block at its clamp from below at zero (the update read back out of the scratch). -/
theorem out_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x32 .f32) (harg6 : arg6.IsWhole) (arg7 : Memref sig .tc .vmem S512x32 .f32) (harg7 : arg7.IsWhole) (arg8 : Memref sig .tc .vmem S512x32 .f32) (harg8 : arg8.IsWhole) (arg9 : Memref sig .tc .vmem S512x32 .f32) (harg9 : arg9.IsWhole) (arg10 : Memref sig .tc .vmem S1024x32 .f32) (harg10 : arg10.IsWhole) (arg11 : Memref sig .tc .vmem S1024x32 .f32) (harg11 : arg11.IsWhole) (hc0 : ¬cond0_0 i) (hc1 : cond0_1 i) (x0 x1 x2 x3 : Vec F S1024x512 .f32) (x4 x5 x6 x7 : Vec F S512x32 .f32)
    (xs0 : Vec F S1024x32 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (step x0 x1 x2 x3 x4 x5 x6 x7 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg11.read_unread,
    View.ld_unit_zero (S := S1024x512) hz, View.ld_unit_zero (S := S512x32) hz, View.ld_unit_zero (S := S1024x32) hz,
    View.readCov_unit_zero (S := S1024x32) _ hz]

end Cert.KernelIdeal.Pieces

end
-- ==== Proof.Payload.lean ====
/-
  One grid point's arithmetic, read entry by entry over the extended reals.

  At the ideal instance a change of float format is the identity and a matrix product into a zero accumulator is the
  plain sum of products.  So the point's update of the running block is, at row r and column c,
      acc[r, c] + (((Σₖ g₀[r, k]·h₀[k, c] + Σₖ g₁[r, k]·h₁[k, c]) + Σₖ g₂[r, k]·h₂[k, c]) + Σₖ g₃[r, k]·h₃[k, c])
  with k over the 512 columns of the point's block of each big matrix; the reset block is zero everywhere; and the
  epilogue is max(·, 0) entry by entry.
-/
import proofs.«137593_j19696720019799_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen

/-! ### The operand indices of the block product -/

theorem lhs_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
theorem lhs_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
theorem rhs_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
theorem rhs_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- Row `i 0`, column `k` of a [1024, 512] block. -/
abbrev lix (i : S1024x32.Idx) (k : Fin 512) : S1024x512.Idx := fun a => match a with
  | ⟨0, _⟩ => ⟨(i 0).val, (i 0).isLt⟩
  | ⟨1, _⟩ => ⟨k.val, k.isLt⟩
/-- Row `k`, column `i 1` of a [512, 32] block. -/
abbrev rix (i : S1024x32.Idx) (k : Fin 512) : S512x32.Idx := fun a => match a with
  | ⟨0, _⟩ => ⟨k.val, k.isLt⟩
  | ⟨1, _⟩ => ⟨(i 1).val, (i 1).isLt⟩

/-- A block product into the zero accumulator is the sum of products over the block's 512 columns. -/
theorem blockDot_apply (a : FVec Ideal S1024x512 .bf16) (b : FVec Ideal S512x32 .bf16) (i : S1024x32.Idx) :
    matmul (F := Ideal) dot_S1024x512_S512x32_S1024x32_1_0_0_1_n_n none a b (constant (F := Ideal) S1024x32 .f32 0x00000000#32) i = ∑ k : Fin 512, a (lix i k) * b (rix i k) := by
  refine (Ideal.matmul_constant_zero_apply dot_S1024x512_S512x32_S1024x32_1_0_0_1_n_n none a b i).trans ?_
  rw [← Equiv.sum_comp (ValueIdx.contrEquiv1 dot_S1024x512_S512x32_S1024x32_1_0_0_1_n_n 512 rfl rfl).symm]
  refine Finset.sum_congr rfl fun k _ => ?_
  have hk := ValueIdx.contrEquiv1_symm_val dot_S1024x512_S512x32_S1024x32_1_0_0_1_n_n 512 rfl rfl k
  have el : dot_S1024x512_S512x32_S1024x32_1_0_0_1_n_n.lhsIdx i ((ValueIdx.contrEquiv1 dot_S1024x512_S512x32_S1024x32_1_0_0_1_n_n 512 rfl rfl).symm k) = lix i k := funext fun a => Fin.ext (by
    match a with
    | ⟨0, _⟩ => exact lhs_0 _ _
    | ⟨1, _⟩ => exact (lhs_1 _ _).trans hk)
  have er : dot_S1024x512_S512x32_S1024x32_1_0_0_1_n_n.rhsIdx i ((ValueIdx.contrEquiv1 dot_S1024x512_S512x32_S1024x32_1_0_0_1_n_n 512 rfl rfl).symm k) = rix i k := funext fun a => Fin.ext (by
    match a with
    | ⟨0, _⟩ => exact (rhs_0 _ _).trans hk
    | ⟨1, _⟩ => exact rhs_1 _ _)
  rw [el, er]

/-! ### The payloads at an entry -/

/-- The four partial products of one point's blocks at an entry, grouped as the body adds them. -/
abbrev addend (x0 x1 x2 x3 : Vec Ideal S1024x512 .f32) (x4 x5 x6 x7 : Vec Ideal S512x32 .f32) (i : S1024x32.Idx) : EReal :=
  ((∑ k : Fin 512, x0 (lix i k) * x4 (rix i k) + ∑ k : Fin 512, x1 (lix i k) * x5 (rix i k))
    + ∑ k : Fin 512, x2 (lix i k) * x6 (rix i k)) + ∑ k : Fin 512, x3 (lix i k) * x7 (rix i k)

/-- The update at an entry: what was there plus the point's four partial products. -/
theorem step_apply (x0 x1 x2 x3 : Vec Ideal S1024x512 .f32) (x4 x5 x6 x7 : Vec Ideal S512x32 .f32)
    (acc : Vec Ideal S1024x32 .f32) (i : S1024x32.Idx) :
    k0_pay1 (k0_pay4 x0 x1 x2 x3 x4 x5 x6 x7 acc) i = acc i + addend x0 x1 x2 x3 x4 x5 x6 x7 i := by
  unfold k0_pay1 k0_pay4
  simp only [shapeCast_self]
  show acc i + (((matmul (F := Ideal) dot_S1024x512_S512x32_S1024x32_1_0_0_1_n_n none _ _ _ i + matmul (F := Ideal) dot_S1024x512_S512x32_S1024x32_1_0_0_1_n_n none _ _ _ i) + matmul (F := Ideal) dot_S1024x512_S512x32_S1024x32_1_0_0_1_n_n none _ _ _ i) + matmul (F := Ideal) dot_S1024x512_S512x32_S1024x32_1_0_0_1_n_n none _ _ _ i) = _
  rw [blockDot_apply, blockDot_apply, blockDot_apply, blockDot_apply]
  rfl

/-- The reset block is zero at every entry. -/
theorem reset_apply (i : S1024x32.Idx) : (k0_pay3 (F := Ideal)) i = 0 := by
  unfold k0_pay3
  simp only [shapeCast_self]
  exact Ideal.ofBits_zero_f32

/-- The epilogue at an entry: the larger of the entry and zero. -/
theorem clamp_apply (v : Vec Ideal S1024x32 .f32) (i : S1024x32.Idx) : k0_pay2 v i = max (v i) 0 := by
  unfold k0_pay2
  show max (v i) (Ideal.ofBits .f32 0x00000000#32) = _
  rw [Ideal.ofBits_zero_f32]

end Cert.KernelIdeal.Payload

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.MergeLaw.lean ====
/-
  The law that joins a contraction taken block by block to the whole contraction.

  Four products share one contracted axis of length A * B.  One side walks the axis in A consecutive blocks of B
  positions: at each block it adds the four block sums, grouped ((p + q) + r) + s, to a running value that starts at
  zero.  The other side takes each product's whole sum first and then adds the four, grouped the same way.  Both
  are the sum of every term once; addition in a commutative monoid regroups and reorders freely, so they agree.
  The extended reals are such a monoid: nothing here asks for finiteness.
-/
import proofs.«137593_j19696720019799_1_alg».proof.Proof.LibTiledSum

open scoped BigOperators

namespace MergeLaw

variable {M : Type*} [AddCommMonoid M]

/-- The running value after all `A` blocks: zero plus, block by block, the four block sums. -/
theorem blocks_four {N : ℕ} (A B : ℕ) (h : N = A * B) (f0 f1 f2 f3 : Fin N → M) (blk : ℕ → M)
    (hblk : ∀ s : Fin A, blk s.val =
      ((∑ b : Fin B, f0 ⟨s.val * B + b.val, h ▸ TiledSum.tile_lt s b⟩
        + ∑ b : Fin B, f1 ⟨s.val * B + b.val, h ▸ TiledSum.tile_lt s b⟩)
        + ∑ b : Fin B, f2 ⟨s.val * B + b.val, h ▸ TiledSum.tile_lt s b⟩)
        + ∑ b : Fin B, f3 ⟨s.val * B + b.val, h ▸ TiledSum.tile_lt s b⟩) :
    (0 : M) + ∑ s ∈ Finset.range A, blk s
      = ((∑ k, f0 k + ∑ k, f1 k) + ∑ k, f2 k) + ∑ k, f3 k := by
  rw [zero_add, Finset.sum_range, TiledSum.sum_fin_tiles A B h f0, TiledSum.sum_fin_tiles A B h f1,
    TiledSum.sum_fin_tiles A B h f2, TiledSum.sum_fin_tiles A B h f3, ← Finset.sum_add_distrib,
    ← Finset.sum_add_distrib, ← Finset.sum_add_distrib]
  exact Finset.sum_congr rfl fun s _ => hblk s

end MergeLaw
-- ==== Proof.Spec.lean ====
/-
  The result both programs compute, entry by entry, over the extended reals.

  With four [8192, 8192] matrices g₀…g₃ and four [8192, 32] matrices h₀…h₃, the entry at row r and column c is
      max( ((Σₖ g₀[r, k]·h₀[k, c] + Σₖ g₁[r, k]·h₁[k, c]) + Σₖ g₂[r, k]·h₂[k, c]) + Σₖ g₃[r, k]·h₃[k, c], 0 ),
  each sum over all 8192 positions of the shared axis.
-/
import Idealize.ShloMosaic.PureOps.Ideal
import Idealize.ShloMosaic.Lib.ValueIdx

noncomputable section

open Idealize.ShloMosaic

namespace MergeSpec

abbrev SG : Shape := ⟨2, ![8192, 8192]⟩
abbrev SH : Shape := ⟨2, ![8192, 32]⟩

/-- Row `i 0`, column `k` of a big matrix. -/
abbrev gIx (i : SH.Idx) (k : Fin 8192) : SG.Idx := fun a => match a with
  | ⟨0, _⟩ => ⟨(i 0).val, (i 0).isLt⟩
  | ⟨1, _⟩ => ⟨k.val, k.isLt⟩
/-- Row `k`, column `i 1` of a small matrix. -/
abbrev hIx (i : SH.Idx) (k : Fin 8192) : SH.Idx := fun a => match a with
  | ⟨0, _⟩ => ⟨k.val, k.isLt⟩
  | ⟨1, _⟩ => ⟨(i 1).val, (i 1).isLt⟩

/-- The four products summed, then clamped from below at zero. -/
def merged (g0 g1 g2 g3 : SG.Idx → EReal) (h0 h1 h2 h3 : SH.Idx → EReal) (i : SH.Idx) : EReal :=
  max (((∑ k : Fin 8192, g0 (gIx i k) * h0 (hIx i k) + ∑ k : Fin 8192, g1 (gIx i k) * h1 (hIx i k))
    + ∑ k : Fin 8192, g2 (gIx i k) * h2 (hIx i k)) + ∑ k : Fin 8192, g3 (gIx i k) * h3 (hIx i k)) 0

end MergeSpec

end
-- ==== Proof.KernelValue.lean ====
/-
  What the idealized kernel's result array holds, as one function of the arrays the region finds.

  The grid is 8 row blocks by 16 contraction blocks, walked row block by row block: point t = 16·j + k handles row
  block j (1024 rows) and contraction block k (512 positions of the shared axis).  The scratch block is zeroed at
  k = 0, gains the four partial products of the point's blocks at every k, and at k = 15 is clamped from below at
  zero into the output block, which is then written back as rows 1024·j … 1024·j + 1023 of the result.

  So the scratch after point 16·j + k holds, at each entry, zero plus the sum over the run's points so far of that
  point's four partial products (a fold the value leg states; unrolled here at an entry).  At k = 15 the sixteen
  points' 512-position pieces tile the whole shared axis, and regrouping the sum (addition of extended reals
  commutes and associates) gives the four whole products added in the reference's order.  The written-back blocks
  cover the result array.
-/
import proofs.«137593_j19696720019799_1_alg».proof.Proof.Gen.KernelIdeal.Value
import proofs.«137593_j19696720019799_1_alg».proof.Proof.Pieces
import proofs.«137593_j19696720019799_1_alg».proof.Proof.Payload
import proofs.«137593_j19696720019799_1_alg».proof.Proof.MergeLaw
import proofs.«137593_j19696720019799_1_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.MergeValue

open Cert.KernelIdeal Cert.KernelIdeal.Gen

variable (m : (ℓ : Loc nD τ sig) → Buf (Elt Ideal) ℓ) (ρ : Dev nD → PrngReg)

/-! ### The arrays as the region finds them, and the blocks a point reads -/

abbrev g0 (c : Dev nD) : Vec Ideal S8192x8192 .f32 := V m c main_arg4
abbrev g1 (c : Dev nD) : Vec Ideal S8192x8192 .f32 := V m c main_arg5
abbrev g2 (c : Dev nD) : Vec Ideal S8192x8192 .f32 := V m c main_arg6
abbrev g3 (c : Dev nD) : Vec Ideal S8192x8192 .f32 := V m c main_arg7
abbrev h0 (c : Dev nD) : Vec Ideal S8192x32 .f32 := V m c main_v3
abbrev h1 (c : Dev nD) : Vec Ideal S8192x32 .f32 := V m c main_v7
abbrev h2 (c : Dev nD) : Vec Ideal S8192x32 .f32 := V m c main_v11
abbrev h3 (c : Dev nD) : Vec Ideal S8192x32 .f32 := V m c main_v15

abbrev bg0 (c : Dev nD) (t : Fin cfg0.N) : Vec Ideal S1024x512 .f32 := iblk m c 0 t
abbrev bg1 (c : Dev nD) (t : Fin cfg0.N) : Vec Ideal S1024x512 .f32 := iblk m c 1 t
abbrev bg2 (c : Dev nD) (t : Fin cfg0.N) : Vec Ideal S1024x512 .f32 := iblk m c 2 t
abbrev bg3 (c : Dev nD) (t : Fin cfg0.N) : Vec Ideal S1024x512 .f32 := iblk m c 3 t
abbrev bh0 (c : Dev nD) (t : Fin cfg0.N) : Vec Ideal S512x32 .f32 := iblk m c 4 t
abbrev bh1 (c : Dev nD) (t : Fin cfg0.N) : Vec Ideal S512x32 .f32 := iblk m c 5 t
abbrev bh2 (c : Dev nD) (t : Fin cfg0.N) : Vec Ideal S512x32 .f32 := iblk m c 6 t
abbrev bh3 (c : Dev nD) (t : Fin cfg0.N) : Vec Ideal S512x32 .f32 := iblk m c 7 t

/-- Point t = 16·j + k reads block (j, k) of each big matrix and block (k, 0) of each small one, and (at the end of
    its run) writes block (j, 0) of the result. -/
theorem idx_facts : ∀ t : Fin cfg0.N,
    (win0_0.index t (0 : Fin 2) = t.val / 16 ∧ win0_0.index t (1 : Fin 2) = t.val % 16)
    ∧ (win0_1.index t (0 : Fin 2) = t.val / 16 ∧ win0_1.index t (1 : Fin 2) = t.val % 16)
    ∧ (win0_2.index t (0 : Fin 2) = t.val / 16 ∧ win0_2.index t (1 : Fin 2) = t.val % 16)
    ∧ (win0_3.index t (0 : Fin 2) = t.val / 16 ∧ win0_3.index t (1 : Fin 2) = t.val % 16)
    ∧ (win0_4.index t (0 : Fin 2) = t.val % 16 ∧ win0_4.index t (1 : Fin 2) = 0)
    ∧ (win0_5.index t (0 : Fin 2) = t.val % 16 ∧ win0_5.index t (1 : Fin 2) = 0)
    ∧ (win0_6.index t (0 : Fin 2) = t.val % 16 ∧ win0_6.index t (1 : Fin 2) = 0)
    ∧ (win0_7.index t (0 : Fin 2) = t.val % 16 ∧ win0_7.index t (1 : Fin 2) = 0)
    ∧ (win0_8.index t (0 : Fin 2) = t.val / 16 ∧ win0_8.index t (1 : Fin 2) = 0) :=
  (by decide +kernel : ∀ t : Fin grid0.N, _)

/-- Entry y of a point's block of a big matrix is the matrix's entry at the block's offset plus y; -/
theorem bg0_apply (c : Dev nD) (t : Fin cfg0.N) (y : S1024x512.Idx) (i : S8192x8192.Idx)
    (e0 : (i 0).val = t.val / 16 * 1024 + (y 0).val) (e1 : (i 1).val = t.val % 16 * 512 + (y 1).val) :
    bg0 m c t y = g0 m c i := by
  show V m c main_arg4 (((cfg0.win 0).blk t).view.emb y) = V m c main_arg4 i
  refine congrArg _ (funext fun a => Fin.ext ?_)
  have hf := (idx_facts t).1
  match a with
  | ⟨0, _⟩ => show win0_0.index t (0 : Fin 2) * 1024 + 1 * (y 0).val = (i 0).val; rw [hf.1, e0]; omega
  | ⟨1, _⟩ => show win0_0.index t (1 : Fin 2) * 512 + 1 * (y 1).val = (i 1).val; rw [hf.2, e1]; omega

theorem bg1_apply (c : Dev nD) (t : Fin cfg0.N) (y : S1024x512.Idx) (i : S8192x8192.Idx)
    (e0 : (i 0).val = t.val / 16 * 1024 + (y 0).val) (e1 : (i 1).val = t.val % 16 * 512 + (y 1).val) :
    bg1 m c t y = g1 m c i := by
  show V m c main_arg5 (((cfg0.win 1).blk t).view.emb y) = V m c main_arg5 i
  refine congrArg _ (funext fun a => Fin.ext ?_)
  have hf := (idx_facts t).2.1
  match a with
  | ⟨0, _⟩ => show win0_1.index t (0 : Fin 2) * 1024 + 1 * (y 0).val = (i 0).val; rw [hf.1, e0]; omega
  | ⟨1, _⟩ => show win0_1.index t (1 : Fin 2) * 512 + 1 * (y 1).val = (i 1).val; rw [hf.2, e1]; omega

theorem bg2_apply (c : Dev nD) (t : Fin cfg0.N) (y : S1024x512.Idx) (i : S8192x8192.Idx)
    (e0 : (i 0).val = t.val / 16 * 1024 + (y 0).val) (e1 : (i 1).val = t.val % 16 * 512 + (y 1).val) :
    bg2 m c t y = g2 m c i := by
  show V m c main_arg6 (((cfg0.win 2).blk t).view.emb y) = V m c main_arg6 i
  refine congrArg _ (funext fun a => Fin.ext ?_)
  have hf := (idx_facts t).2.2.1
  match a with
  | ⟨0, _⟩ => show win0_2.index t (0 : Fin 2) * 1024 + 1 * (y 0).val = (i 0).val; rw [hf.1, e0]; omega
  | ⟨1, _⟩ => show win0_2.index t (1 : Fin 2) * 512 + 1 * (y 1).val = (i 1).val; rw [hf.2, e1]; omega

theorem bg3_apply (c : Dev nD) (t : Fin cfg0.N) (y : S1024x512.Idx) (i : S8192x8192.Idx)
    (e0 : (i 0).val = t.val / 16 * 1024 + (y 0).val) (e1 : (i 1).val = t.val % 16 * 512 + (y 1).val) :
    bg3 m c t y = g3 m c i := by
  show V m c main_arg7 (((cfg0.win 3).blk t).view.emb y) = V m c main_arg7 i
  refine congrArg _ (funext fun a => Fin.ext ?_)
  have hf := (idx_facts t).2.2.2.1
  match a with
  | ⟨0, _⟩ => show win0_3.index t (0 : Fin 2) * 1024 + 1 * (y 0).val = (i 0).val; rw [hf.1, e0]; omega
  | ⟨1, _⟩ => show win0_3.index t (1 : Fin 2) * 512 + 1 * (y 1).val = (i 1).val; rw [hf.2, e1]; omega

/-- and the same for the small matrices, whose blocks move only with the contraction block. -/
theorem bh0_apply (c : Dev nD) (t : Fin cfg0.N) (y : S512x32.Idx) (i : S8192x32.Idx)
    (e0 : (i 0).val = t.val % 16 * 512 + (y 0).val) (e1 : (i 1).val = (y 1).val) :
    bh0 m c t y = h0 m c i := by
  show V m c main_v3 (((cfg0.win 4).blk t).view.emb y) = V m c main_v3 i
  refine congrArg _ (funext fun a => Fin.ext ?_)
  have hf := (idx_facts t).2.2.2.2.1
  match a with
  | ⟨0, _⟩ => show win0_4.index t (0 : Fin 2) * 512 + 1 * (y 0).val = (i 0).val; rw [hf.1, e0]; omega
  | ⟨1, _⟩ => show win0_4.index t (1 : Fin 2) * 32 + 1 * (y 1).val = (i 1).val; rw [hf.2, e1]; omega

theorem bh1_apply (c : Dev nD) (t : Fin cfg0.N) (y : S512x32.Idx) (i : S8192x32.Idx)
    (e0 : (i 0).val = t.val % 16 * 512 + (y 0).val) (e1 : (i 1).val = (y 1).val) :
    bh1 m c t y = h1 m c i := by
  show V m c main_v7 (((cfg0.win 5).blk t).view.emb y) = V m c main_v7 i
  refine congrArg _ (funext fun a => Fin.ext ?_)
  have hf := (idx_facts t).2.2.2.2.2.1
  match a with
  | ⟨0, _⟩ => show win0_5.index t (0 : Fin 2) * 512 + 1 * (y 0).val = (i 0).val; rw [hf.1, e0]; omega
  | ⟨1, _⟩ => show win0_5.index t (1 : Fin 2) * 32 + 1 * (y 1).val = (i 1).val; rw [hf.2, e1]; omega

theorem bh2_apply (c : Dev nD) (t : Fin cfg0.N) (y : S512x32.Idx) (i : S8192x32.Idx)
    (e0 : (i 0).val = t.val % 16 * 512 + (y 0).val) (e1 : (i 1).val = (y 1).val) :
    bh2 m c t y = h2 m c i := by
  show V m c main_v11 (((cfg0.win 6).blk t).view.emb y) = V m c main_v11 i
  refine congrArg _ (funext fun a => Fin.ext ?_)
  have hf := (idx_facts t).2.2.2.2.2.2.1
  match a with
  | ⟨0, _⟩ => show win0_6.index t (0 : Fin 2) * 512 + 1 * (y 0).val = (i 0).val; rw [hf.1, e0]; omega
  | ⟨1, _⟩ => show win0_6.index t (1 : Fin 2) * 32 + 1 * (y 1).val = (i 1).val; rw [hf.2, e1]; omega

theorem bh3_apply (c : Dev nD) (t : Fin cfg0.N) (y : S512x32.Idx) (i : S8192x32.Idx)
    (e0 : (i 0).val = t.val % 16 * 512 + (y 0).val) (e1 : (i 1).val = (y 1).val) :
    bh3 m c t y = h3 m c i := by
  show V m c main_v15 (((cfg0.win 7).blk t).view.emb y) = V m c main_v15 i
  refine congrArg _ (funext fun a => Fin.ext ?_)
  have hf := (idx_facts t).2.2.2.2.2.2.2.1
  match a with
  | ⟨0, _⟩ => show win0_7.index t (0 : Fin 2) * 512 + 1 * (y 0).val = (i 0).val; rw [hf.1, e0]; omega
  | ⟨1, _⟩ => show win0_7.index t (1 : Fin 2) * 32 + 1 * (y 1).val = (i 1).val; rw [hf.2, e1]; omega

/-! ### The running block: what the scratch holds after each point -/

/-- What point n leaves in the scratch when it opens a run: the update of the zero block. -/
theorem scratch_at_first (c : Dev nD) (n : ℕ) (hb : n < cfg0.N) (h0 : n % 16 = 0) (acc : Vec Ideal S1024x32 .f32) :
    Value.scAt0_0 m c n hb acc = Pieces.step (bg0 m c ⟨n, hb⟩) (bg1 m c ⟨n, hb⟩) (bg2 m c ⟨n, hb⟩) (bg3 m c ⟨n, hb⟩) (bh0 m c ⟨n, hb⟩) (bh1 m c ⟨n, hb⟩) (bh2 m c ⟨n, hb⟩) (bh3 m c ⟨n, hb⟩) (k0_pay3 (F := Ideal)) := by
  unfold Value.scAt0_0
  rw [dif_pos h0, dif_neg (by omega)]
  exact Pieces.scratch_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) _ _ (bg0 m c ⟨n, hb⟩) (bg1 m c ⟨n, hb⟩) (bg2 m c ⟨n, hb⟩) (bg3 m c ⟨n, hb⟩) (bh0 m c ⟨n, hb⟩) (bh1 m c ⟨n, hb⟩) (bh2 m c ⟨n, hb⟩) (bh3 m c ⟨n, hb⟩)

/-- What any later point of the run leaves there: the update of what the point before left. -/
theorem scratch_at_later (c : Dev nD) (n : ℕ) (hb : n < cfg0.N) (h0 : ¬n % 16 = 0) (acc : Vec Ideal S1024x32 .f32) :
    Value.scAt0_0 m c n hb acc = Pieces.step (bg0 m c ⟨n, hb⟩) (bg1 m c ⟨n, hb⟩) (bg2 m c ⟨n, hb⟩) (bg3 m c ⟨n, hb⟩) (bh0 m c ⟨n, hb⟩) (bh1 m c ⟨n, hb⟩) (bh2 m c ⟨n, hb⟩) (bh3 m c ⟨n, hb⟩) acc := by
  unfold Value.scAt0_0
  rw [dif_neg h0]
  by_cases h1 : n % 16 = 15
  · rw [dif_pos h1]
    exact Pieces.scratch_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) _ _ (bg0 m c ⟨n, hb⟩) (bg1 m c ⟨n, hb⟩) (bg2 m c ⟨n, hb⟩) (bg3 m c ⟨n, hb⟩) (bh0 m c ⟨n, hb⟩) (bh1 m c ⟨n, hb⟩) (bh2 m c ⟨n, hb⟩) (bh3 m c ⟨n, hb⟩) acc
  · rw [dif_neg h1]
    exact Pieces.scratch_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) _ _ (bg0 m c ⟨n, hb⟩) (bg1 m c ⟨n, hb⟩) (bg2 m c ⟨n, hb⟩) (bg3 m c ⟨n, hb⟩) (bh0 m c ⟨n, hb⟩) (bh1 m c ⟨n, hb⟩) (bh2 m c ⟨n, hb⟩) (bh3 m c ⟨n, hb⟩) acc

/-- Point n's four partial products at an entry of the running block (zero past the grid, where it is never read). -/
def addendAt (c : Dev nD) (n : ℕ) (i : S1024x32.Idx) : EReal :=
  if h : n < cfg0.N then Payload.addend (bg0 m c ⟨n, h⟩) (bg1 m c ⟨n, h⟩) (bg2 m c ⟨n, h⟩) (bg3 m c ⟨n, h⟩) (bh0 m c ⟨n, h⟩) (bh1 m c ⟨n, h⟩) (bh2 m c ⟨n, h⟩) (bh3 m c ⟨n, h⟩) i else 0

theorem addendAt_of_lt (c : Dev nD) (n : ℕ) (h : n < cfg0.N) (i : S1024x32.Idx) :
    addendAt m c n i = Payload.addend (bg0 m c ⟨n, h⟩) (bg1 m c ⟨n, h⟩) (bg2 m c ⟨n, h⟩) (bg3 m c ⟨n, h⟩) (bh0 m c ⟨n, h⟩) (bh1 m c ⟨n, h⟩) (bh2 m c ⟨n, h⟩) (bh3 m c ⟨n, h⟩) i := dif_pos h

/-- The scratch after point t, at an entry: zero plus the addends of the points of t's run up to t. -/
theorem scratch_fold (c : Dev nD) (t : Fin cfg0.N) (i : S1024x32.Idx) :
    (outsAt0 m c t.val t.isLt).2 i
      = 0 + ∑ s ∈ Finset.range (t.val % 16 + 1), addendAt m c (16 * (t.val / 16) + s) i := by
  rw [Value.soutsAt0_0_eq]
  refine Pipeline.accAt_add_apply (β := EReal)
    (fun n h => Value.scAt0_0 m c n h (VS0_0.read (Elt Ideal) VS0_0.junk)) (Value.scAt0_0 m c) (fun _ => 0)
    (addendAt m c) (16 * (t.val / 16)) 15 ?_ ?_ (t.val % 16) (by omega) _ i
  · intro h j
    show Value.scAt0_0 m c _ h _ j = _
    rw [scratch_at_first m c _ h (by omega), addendAt_of_lt m c _ h]
    refine (Payload.step_apply _ _ _ _ _ _ _ _ _ j).trans ?_
    rw [Payload.reset_apply]
  · intro n h acc j hlo hhi
    rw [scratch_at_later m c n h (by omega) acc, addendAt_of_lt m c n h]
    exact Payload.step_apply _ _ _ _ _ _ _ _ _ j

/-- At the last point of a run the output block is the scratch clamped from below at zero. -/
theorem out_is_clamp (c : Dev nD) (t : Fin cfg0.N) (h1 : t.val % 16 = 15) :
    (outsAt0 m c t.val t.isLt).1 = k0_pay2 ((outsAt0 m c t.val t.isLt).2) := by
  have h0 : ¬t.val % 16 = 0 := by omega
  rw [outsAt0_C m c t h0 h1]
  dsimp only
  rw [Pieces.out_last, Pieces.scratch_last]

/-! ### The result array -/

/-- One product term of a point of the run, named by its position on the whole contracted axis. -/
theorem prod0_eq (c : Dev nD) (t : Fin cfg0.N) (s : Fin 16) (hn : 16 * (t.val / 16) + s.val < cfg0.N)
    (j : S1024x32.Idx) (I : S8192x32.Idx) (hI0 : (I 0).val = t.val / 16 * 1024 + (j 0).val) (hI1 : (I 1).val = (j 1).val)
    (b : Fin 512) (hk : s.val * 512 + b.val < 8192) :
    bg0 m c ⟨16 * (t.val / 16) + s.val, hn⟩ (Payload.lix j b) * bh0 m c ⟨16 * (t.val / 16) + s.val, hn⟩ (Payload.rix j b)
      = g0 m c (MergeSpec.gIx I ⟨s.val * 512 + b.val, hk⟩) * h0 m c (MergeSpec.hIx I ⟨s.val * 512 + b.val, hk⟩) := by
  have hs := s.isLt
  rw [bg0_apply m c ⟨16 * (t.val / 16) + s.val, hn⟩ (Payload.lix j b) (MergeSpec.gIx I ⟨s.val * 512 + b.val, hk⟩)
      (by show (I 0).val = (16 * (t.val / 16) + s.val) / 16 * 1024 + (j 0).val; rw [hI0]; omega)
      (by show s.val * 512 + b.val = (16 * (t.val / 16) + s.val) % 16 * 512 + b.val; omega),
    bh0_apply m c ⟨16 * (t.val / 16) + s.val, hn⟩ (Payload.rix j b) (MergeSpec.hIx I ⟨s.val * 512 + b.val, hk⟩)
      (by show s.val * 512 + b.val = (16 * (t.val / 16) + s.val) % 16 * 512 + b.val; omega)
      (by show (I 1).val = (j 1).val; exact hI1)]

theorem prod1_eq (c : Dev nD) (t : Fin cfg0.N) (s : Fin 16) (hn : 16 * (t.val / 16) + s.val < cfg0.N)
    (j : S1024x32.Idx) (I : S8192x32.Idx) (hI0 : (I 0).val = t.val / 16 * 1024 + (j 0).val) (hI1 : (I 1).val = (j 1).val)
    (b : Fin 512) (hk : s.val * 512 + b.val < 8192) :
    bg1 m c ⟨16 * (t.val / 16) + s.val, hn⟩ (Payload.lix j b) * bh1 m c ⟨16 * (t.val / 16) + s.val, hn⟩ (Payload.rix j b)
      = g1 m c (MergeSpec.gIx I ⟨s.val * 512 + b.val, hk⟩) * h1 m c (MergeSpec.hIx I ⟨s.val * 512 + b.val, hk⟩) := by
  have hs := s.isLt
  rw [bg1_apply m c ⟨16 * (t.val / 16) + s.val, hn⟩ (Payload.lix j b) (MergeSpec.gIx I ⟨s.val * 512 + b.val, hk⟩)
      (by show (I 0).val = (16 * (t.val / 16) + s.val) / 16 * 1024 + (j 0).val; rw [hI0]; omega)
      (by show s.val * 512 + b.val = (16 * (t.val / 16) + s.val) % 16 * 512 + b.val; omega),
    bh1_apply m c ⟨16 * (t.val / 16) + s.val, hn⟩ (Payload.rix j b) (MergeSpec.hIx I ⟨s.val * 512 + b.val, hk⟩)
      (by show s.val * 512 + b.val = (16 * (t.val / 16) + s.val) % 16 * 512 + b.val; omega)
      (by show (I 1).val = (j 1).val; exact hI1)]

theorem prod2_eq (c : Dev nD) (t : Fin cfg0.N) (s : Fin 16) (hn : 16 * (t.val / 16) + s.val < cfg0.N)
    (j : S1024x32.Idx) (I : S8192x32.Idx) (hI0 : (I 0).val = t.val / 16 * 1024 + (j 0).val) (hI1 : (I 1).val = (j 1).val)
    (b : Fin 512) (hk : s.val * 512 + b.val < 8192) :
    bg2 m c ⟨16 * (t.val / 16) + s.val, hn⟩ (Payload.lix j b) * bh2 m c ⟨16 * (t.val / 16) + s.val, hn⟩ (Payload.rix j b)
      = g2 m c (MergeSpec.gIx I ⟨s.val * 512 + b.val, hk⟩) * h2 m c (MergeSpec.hIx I ⟨s.val * 512 + b.val, hk⟩) := by
  have hs := s.isLt
  rw [bg2_apply m c ⟨16 * (t.val / 16) + s.val, hn⟩ (Payload.lix j b) (MergeSpec.gIx I ⟨s.val * 512 + b.val, hk⟩)
      (by show (I 0).val = (16 * (t.val / 16) + s.val) / 16 * 1024 + (j 0).val; rw [hI0]; omega)
      (by show s.val * 512 + b.val = (16 * (t.val / 16) + s.val) % 16 * 512 + b.val; omega),
    bh2_apply m c ⟨16 * (t.val / 16) + s.val, hn⟩ (Payload.rix j b) (MergeSpec.hIx I ⟨s.val * 512 + b.val, hk⟩)
      (by show s.val * 512 + b.val = (16 * (t.val / 16) + s.val) % 16 * 512 + b.val; omega)
      (by show (I 1).val = (j 1).val; exact hI1)]

theorem prod3_eq (c : Dev nD) (t : Fin cfg0.N) (s : Fin 16) (hn : 16 * (t.val / 16) + s.val < cfg0.N)
    (j : S1024x32.Idx) (I : S8192x32.Idx) (hI0 : (I 0).val = t.val / 16 * 1024 + (j 0).val) (hI1 : (I 1).val = (j 1).val)
    (b : Fin 512) (hk : s.val * 512 + b.val < 8192) :
    bg3 m c ⟨16 * (t.val / 16) + s.val, hn⟩ (Payload.lix j b) * bh3 m c ⟨16 * (t.val / 16) + s.val, hn⟩ (Payload.rix j b)
      = g3 m c (MergeSpec.gIx I ⟨s.val * 512 + b.val, hk⟩) * h3 m c (MergeSpec.hIx I ⟨s.val * 512 + b.val, hk⟩) := by
  have hs := s.isLt
  rw [bg3_apply m c ⟨16 * (t.val / 16) + s.val, hn⟩ (Payload.lix j b) (MergeSpec.gIx I ⟨s.val * 512 + b.val, hk⟩)
      (by show (I 0).val = (16 * (t.val / 16) + s.val) / 16 * 1024 + (j 0).val; rw [hI0]; omega)
      (by show s.val * 512 + b.val = (16 * (t.val / 16) + s.val) % 16 * 512 + b.val; omega),
    bh3_apply m c ⟨16 * (t.val / 16) + s.val, hn⟩ (Payload.rix j b) (MergeSpec.hIx I ⟨s.val * 512 + b.val, hk⟩)
      (by show s.val * 512 + b.val = (16 * (t.val / 16) + s.val) % 16 * 512 + b.val; omega)
      (by show (I 1).val = (j 1).val; exact hI1)]

/-- What the result array ends holding: the clamped sum of the four whole products of the arrays as the region finds
    them. -/
abbrev result (c : Dev nD) : Vec Ideal S8192x32 .f32 :=
  MergeSpec.merged (g0 m c) (g1 m c) (g2 m c) (g3 m c) (h0 m c) (h1 m c) (h2 m c) (h3 m c)

/-- Over one run of sixteen points, the addends at an entry sum to the four whole products at the matching entry of
    the result: each point contributes its 512 positions of the shared axis, and the sixteen tile it. -/
theorem run_sum (c : Dev nD) (t : Fin cfg0.N) (hlast : t.val % 16 = 15) (j : S1024x32.Idx) (I : S8192x32.Idx)
    (hI0 : (I 0).val = t.val / 16 * 1024 + (j 0).val) (hI1 : (I 1).val = (j 1).val) :
    max (0 + ∑ s ∈ Finset.range (15 + 1), addendAt m c (16 * (t.val / 16) + s) j) 0 = result m c I := by
  have ht := t.isLt
  refine congrArg (fun x : EReal => max x 0) ?_
  refine MergeLaw.blocks_four 16 512 rfl
    (fun k => g0 m c (MergeSpec.gIx I k) * h0 m c (MergeSpec.hIx I k))
    (fun k => g1 m c (MergeSpec.gIx I k) * h1 m c (MergeSpec.hIx I k))
    (fun k => g2 m c (MergeSpec.gIx I k) * h2 m c (MergeSpec.hIx I k))
    (fun k => g3 m c (MergeSpec.gIx I k) * h3 m c (MergeSpec.hIx I k))
    (fun s => addendAt m c (16 * (t.val / 16) + s) j) ?_
  intro s
  have hs := s.isLt
  have hn : 16 * (t.val / 16) + s.val < cfg0.N := by omega
  show addendAt m c (16 * (t.val / 16) + s.val) j = _
  rw [addendAt_of_lt m c _ hn]
  refine congrArg₂ (· + ·) (congrArg₂ (· + ·) (congrArg₂ (· + ·) ?_ ?_) ?_) ?_
  · exact Finset.sum_congr rfl fun b _ => prod0_eq m c t s hn j I hI0 hI1 b _
  · exact Finset.sum_congr rfl fun b _ => prod1_eq m c t s hn j I hI0 hI1 b _
  · exact Finset.sum_congr rfl fun b _ => prod2_eq m c t s hn j I hI0 hI1 b _
  · exact Finset.sum_congr rfl fun b _ => prod3_eq m c t s hn j I hI0 hI1 b _

/-- The last point of each run writes back the run's block of `result`: sixteen block sums regrouped into the four
    whole sums. -/
theorem flushed_eq (c : Dev nD) (t : Fin cfg0.N) (hf : (cfg0.win 8).flush t = true) :
    (dats m 0 c).flushed 8 t = ((cfg0.win 8).blk t).view.read (Elt Ideal) (result m c) := by
  have h1 : t.val % 16 = 15 := (flush0_8 t).mp hf
  have hf8 := (idx_facts t).2.2.2.2.2.2.2.2
  rw [Value.flushed8, out_is_clamp m c t h1]
  funext j
  show k0_pay2 ((outsAt0 m c t.val t.isLt).2) j = result m c (((cfg0.win 8).blk t).view.emb j)
  rw [Payload.clamp_apply, scratch_fold, h1]
  have hI0 : ((((cfg0.win 8).blk t).view.emb j) 0).val = t.val / 16 * 1024 + (j 0).val := by
    show win0_8.index t (0 : Fin 2) * 1024 + 1 * (j 0).val = _
    rw [hf8.1]; omega
  have hI1 : ((((cfg0.win 8).blk t).view.emb j) 1).val = (j 1).val := by
    show win0_8.index t (1 : Fin 2) * 32 + 1 * (j 1).val = _
    rw [hf8.2]; omega
  exact run_sum m c t h1 j _ hI0 hI1

/-- An entry of the result array lies in point t's block iff its row lies in the block's 1024 rows. -/
theorem mem_blk (t : Fin cfg0.N) (i : S8192x32.Idx) :
    i ∈ ((cfg0.win 8).blk t).view.set ↔ ∀ a : Fin 2, win0_8.index t a * S1024x32.size a ≤ (i a).val ∧ (i a).val < win0_8.index t a * S1024x32.size a + S1024x32.size a := by
  show i ∈ ((View.whole main_v16).slice (win0_8.rect t)).set ↔ _
  rw [View.set_slice_whole, Rect.mem_set_unit]
  exact Iff.rfl

/-- Every entry is written back by the last point of its row block's run. -/
theorem covered (i : S8192x32.Idx) :
    ∃ t : Fin cfg0.N, (cfg0.win 8).flush t = true ∧ i ∈ ((cfg0.win 8).blk t).view.set := by
  have hi0 : (i 0).val < 8192 := (i 0).isLt
  have hi1 : (i 1).val < 32 := (i 1).isLt
  have hN : cfg0.N = 128 := N_0
  let t : Fin cfg0.N := ⟨16 * ((i 0).val / 1024) + 15, by omega⟩
  have htv : t.val = 16 * ((i 0).val / 1024) + 15 := rfl
  have hf8 := (idx_facts t).2.2.2.2.2.2.2.2
  refine ⟨t, (flush0_8 t).mpr (by omega), ?_⟩
  rw [mem_blk]
  intro a
  match a with
  | ⟨0, _⟩ => show win0_8.index t (0 : Fin 2) * 1024 ≤ (i 0).val ∧ (i 0).val < win0_8.index t (0 : Fin 2) * 1024 + 1024; rw [hf8.1]; omega
  | ⟨1, _⟩ => show win0_8.index t (1 : Fin 2) * 32 ≤ (i 1).val ∧ (i 1).val < win0_8.index t (1 : Fin 2) * 32 + 32; rw [hf8.2]; omega

/-- So the result array ends holding `result`. -/
theorem final (c : Dev nD) : (dats m 0 c).arrAt 8 cfg0.N = result m c :=
  (dats m 0 c).arrAt_eq_of_cover 8 (result m c) (flushed_eq m c) covered

/-! ### The arrays the region finds, in terms of @main's arguments -/

/-- x·W + b as @main's host operations spell it: a product over the 32 input channels plus the bias row repeated down
    the rows. -/
abbrev lin (x : FVec Ideal S8192x32 .f32) (W : FVec Ideal S32x32 .f32) (b : FVec Ideal S32 .f32) : FVec Ideal S8192x32 .f32 :=
  addf (Host.dotGeneral (F := Ideal) dot_S8192x32_S32x32_S8192x32_1_0_0_1_n_n none x W)
    (broadcastInDim S8192x32 ![0, 1] bcast_S1x32_S8192x32_0_1 (broadcastInDim S1x32 ![1] bcast_S32_S1x32_1 b))

/-- The four small matrices are what the host operations before the region computed from the arguments. -/
theorem h0_eq (c : Dev nD) : h0 m c = lin (m ((c : Thread nD τ).loc main_arg0)) (m ((c : Thread nD τ).loc main_arg8)) (m ((c : Thread nD τ).loc main_arg12)) := by
  show V m c main_v3 = _
  dsimp only [V, hostOps0]
  after_results
theorem h1_eq (c : Dev nD) : h1 m c = lin (m ((c : Thread nD τ).loc main_arg1)) (m ((c : Thread nD τ).loc main_arg9)) (m ((c : Thread nD τ).loc main_arg13)) := by
  show V m c main_v7 = _
  dsimp only [V, hostOps0]
  after_results
theorem h2_eq (c : Dev nD) : h2 m c = lin (m ((c : Thread nD τ).loc main_arg1)) (m ((c : Thread nD τ).loc main_arg10)) (m ((c : Thread nD τ).loc main_arg14)) := by
  show V m c main_v11 = _
  dsimp only [V, hostOps0]
  after_results
theorem h3_eq (c : Dev nD) : h3 m c = lin (m ((c : Thread nD τ).loc main_arg3)) (m ((c : Thread nD τ).loc main_arg11)) (m ((c : Thread nD τ).loc main_arg15)) := by
  show V m c main_v15 = _
  dsimp only [V, hostOps0]
  after_results

/-- The result in terms of @main's arguments: the big matrices are arguments, the small ones the host's x·W + b. -/
theorem result_args (c : Dev nD) :
    result m c = MergeSpec.merged (m ((c : Thread nD τ).loc main_arg4)) (m ((c : Thread nD τ).loc main_arg5)) (m ((c : Thread nD τ).loc main_arg6)) (m ((c : Thread nD τ).loc main_arg7))
      (lin (m ((c : Thread nD τ).loc main_arg0)) (m ((c : Thread nD τ).loc main_arg8)) (m ((c : Thread nD τ).loc main_arg12)))
      (lin (m ((c : Thread nD τ).loc main_arg1)) (m ((c : Thread nD τ).loc main_arg9)) (m ((c : Thread nD τ).loc main_arg13)))
      (lin (m ((c : Thread nD τ).loc main_arg1)) (m ((c : Thread nD τ).loc main_arg10)) (m ((c : Thread nD τ).loc main_arg14)))
      (lin (m ((c : Thread nD τ).loc main_arg3)) (m ((c : Thread nD τ).loc main_arg11)) (m ((c : Thread nD τ).loc main_arg15))) := by
  show MergeSpec.merged (g0 m c) (g1 m c) (g2 m c) (g3 m c) (h0 m c) (h1 m c) (h2 m c) (h3 m c) = _
  rw [h0_eq, h1_eq, h2_eq, h3_eq]
  show MergeSpec.merged (V m c main_arg4) (V m c main_arg5) (V m c main_arg6) (V m c main_arg7) _ _ _ _ = _
  rw [V_main_arg4, V_main_arg5, V_main_arg6, V_main_arg7]

/-! ### The run, read -/

/-- Every weakly fair execution of the idealized kernel terminates with the result array at `result` and the
    arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.MergeValue

end
-- ==== Proof.Reference.lean ====
/-
  The reference, entry by entry: its result is the specification applied to the four big matrices and the four
  small matrices its own first stages compute.

  The reference forms each small matrix x·W + b, multiplies each big matrix by its small one over the whole shared
  axis, adds the four products grouped ((p + q) + r) + s, and takes the larger of the sum and zero.  Read at an
  entry, stage by stage, that is the specification's formula word for word.
-/
import proofs.«137593_j19696720019799_1_alg».proof.Proof.Gen.ReferenceIdeal.Read
import proofs.«137593_j19696720019799_1_alg».proof.Proof.Spec

noncomputable section

open Idealize.ShloMosaic Idealize.ShloMosaic.TcCoe Idealize.SL.Sem
open Idealize.ShloMosaic.Pipeline (Dat)

namespace Cert.ReferenceIdeal.MergeRef

open Cert.ReferenceIdeal Cert.ReferenceIdeal.Gen Cert.ReferenceIdeal.Read

/-- The reference's result stage is the specification of its arguments' big matrices and of its own small-matrix
    stages. -/
theorem result_eq (x0 x1 x3 : (⟨S8192x32, .f32⟩ : BufTy).Contents (Elt Ideal))
    (x4 x5 x6 x7 : (⟨S8192x8192, .f32⟩ : BufTy).Contents (Elt Ideal))
    (x8 x9 x10 x11 : (⟨S32x32, .f32⟩ : BufTy).Contents (Elt Ideal))
    (x12 x13 x14 x15 : (⟨S32, .f32⟩ : BufTy).Contents (Elt Ideal)) :
    val_main_v23 (F := Ideal) x0 x1 x3 x4 x5 x6 x7 x8 x9 x10 x11 x12 x13 x14 x15
      = MergeSpec.merged x4 x5 x6 x7 (val_main_v3 (F := Ideal) x0 x8 x12) (val_main_v8 (F := Ideal) x1 x9 x13)
          (val_main_v14 (F := Ideal) x1 x10 x14) (val_main_v20 (F := Ideal) x3 x11 x15) := by
  funext i
  rw [val_main_v23_apply, val_main_v22_apply, val_main_v16_apply, val_main_v10_apply, val_main_v4_apply,
    val_main_v9_apply, val_main_v15_apply, val_main_v21_apply, val_main_call0_v0_apply, val_main_call0_cst_apply]
  unfold MergeSpec.merged
  simp only [Ideal.maximumf_def, Ideal.addf_def]
  exact congrArg (max _) Ideal.ofBits_zero_f32

end Cert.ReferenceIdeal.MergeRef

end
-- ==== Proof.lean ====
/-
  The certificate of the four-branch merge: z = relu(Gi2j·hi + Adj2j·hj1 + coAdj2j·hj2 + Gk2j·hk), each h = x·W + b.

  Both programs first form the four [8192, 32] matrices x·W + b on the host, with the same operations.  The kernel
  then walks each [8192, 8192] matrix in 1024 × 512 tiles: for each block of 1024 result rows it keeps a running
  block, zeroed at the first of sixteen steps, adds at every step the four partial products over that step's 512
  positions of the shared axis, and at the last step writes max(running block, 0) back.  The reference multiplies
  each big matrix by its small one over the whole shared axis, adds the four products and takes max(·, 0).

  Over the extended reals a change of float format is the identity and a matrix product is the plain sum of
  products, so both results are, entry by entry, max of the same 4 × 8192 terms summed, only grouped differently;
  addition commutes and associates there, infinities included, so no finiteness of the inputs is used.  The kernel's
  side is read off the generated frame run and value leg (what each point leaves in the scratch, the fold over a run,
  the blocks written back); the reference's side off its generated run, stage by stage.

  The frames of the two kernel programs are the generated ones; the reference's frame is its generated run with the
  result dropped; the ideal pass rewrote nothing, so there is nothing to preserve.
-/
import proofs.«137593_j19696720019799_1_alg».proof.Defs
import proofs.«137593_j19696720019799_1_alg».proof.Proof.Gen.Kernel
import proofs.«137593_j19696720019799_1_alg».proof.Proof.Gen.Kernel.Skeleton
import proofs.«137593_j19696720019799_1_alg».proof.Proof.Gen.Kernel.Launch
import proofs.«137593_j19696720019799_1_alg».proof.Proof.Gen.Kernel.Points
import proofs.«137593_j19696720019799_1_alg».proof.Proof.Gen.Kernel.Frame
import proofs.«137593_j19696720019799_1_alg».proof.Proof.Gen.KernelIdeal
import proofs.«137593_j19696720019799_1_alg».proof.Proof.Gen.KernelIdeal.Skeleton
import proofs.«137593_j19696720019799_1_alg».proof.Proof.Gen.KernelIdeal.Launch
import proofs.«137593_j19696720019799_1_alg».proof.Proof.Gen.KernelIdeal.Points
import proofs.«137593_j19696720019799_1_alg».proof.Proof.Gen.KernelIdeal.Frame
import proofs.«137593_j19696720019799_1_alg».proof.Proof.Gen.ReferenceIdeal
import proofs.«137593_j19696720019799_1_alg».proof.Proof.Gen.KernelIdeal.Value
import proofs.«137593_j19696720019799_1_alg».proof.Proof.Gen.ReferenceIdeal.Run
import proofs.«137593_j19696720019799_1_alg».proof.Proof.Gen.ReferenceIdeal.Read
import proofs.«137593_j19696720019799_1_alg».proof.Proof.Gen.Pre_finite_inputs
import proofs.«137593_j19696720019799_1_alg».proof.Proof.KernelValue
import proofs.«137593_j19696720019799_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the specification of its arguments (big matrices) and of the host's x·W + b
    (small matrices); the reference's result stage is the same specification of arguments that agree. -/
theorem algebraic : Cert.algebraic_KernelIdeal_ReferenceIdeal := by
  intro m ρ m' ρ' _ hagree
  refine ⟨fun c => Cert.KernelIdeal.MergeValue.result m c, Cert.KernelIdeal.MergeValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8, a9, a10, a11, a12, a13, a14, a15⟩ := hagree c
  show _ = Cert.KernelIdeal.MergeValue.result m c
  rw [Cert.KernelIdeal.MergeValue.result_args m c, Cert.ReferenceIdeal.Read.val_main_v23_eq,
    Cert.ReferenceIdeal.MergeRef.result_eq, a0, a1, a3, a4, a5, a6, a7, a8, a9, a10, a11, a12, a13, a14, a15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
